-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x50x512 : Shape := ⟨4, ![32, 16, 50, 512]⟩
abbrev S32x16x50x10 : Shape := ⟨4, ![32, 16, 50, 10]⟩
abbrev S10x512 : Shape := ⟨2, ![10, 512]⟩
abbrev S_ : Shape := ⟨0, ![]⟩

class Facts : Prop where
  bcast_S_S32x16x50x512 : S_.BroadcastsInDim S32x16x50x512 (![] : Fin 0 → Fin S32x16x50x512.rank)
  reducesTo_S32x16x50x512_S_d0_1_2_3 : S32x16x50x512.ReducesTo [0, 1, 2, 3] S_
  h_S_ : 0 < S_.numel
  bcast_S_S32x16x50x10 : S_.BroadcastsInDim S32x16x50x10 (![] : Fin 0 → Fin S32x16x50x10.rank)
  reducesTo_S32x16x50x10_S_d0_1_2_3 : S32x16x50x10.ReducesTo [0, 1, 2, 3] S_
  bcast_S_S10x512 : S_.BroadcastsInDim S10x512 (![] : Fin 0 → Fin S10x512.rank)
  reducesTo_S10x512_S_d0_1 : S10x512.ReducesTo [0, 1] S_

variable [Facts]

def fn {F : FTy → Type} [FloatOps F] (main_arg0 : FVec F S32x16x50x512 .f32) (main_arg1 : FVec F S32x16x50x10 .f32) (main_arg2 : FVec F S10x512 .f32) : IVec S_ 1 :=
  let main_v0 : FVec F S32x16x50x512 .f32 := Host.absf main_arg0
  let main_cst : FVec F S_ .f32 := constant S_ .f32 0x7F800000#32
  let main_v1 : FVec F S32x16x50x512 .f32 := broadcastInDim S32x16x50x512 ![] bcast_S_S32x16x50x512 main_cst
  let main_v2 : IVec S32x16x50x512 1 := cmpf .olt main_v0 main_v1
  let main_c : IVec S_ 1 := constantI S_ 1 1#1
  let main_v3 : IVec S_ 1 := (fun x v => Host.reduce IntOp.andi x v reducesTo_S32x16x50x512_S_d0_1_2_3 h_S_) main_v2 main_c
  let main_v4 : FVec F S32x16x50x10 .f32 := Host.absf main_arg1
  let main_cst_0 : FVec F S_ .f32 := constant S_ .f32 0x7F800000#32
  let main_v5 : FVec F S32x16x50x10 .f32 := broadcastInDim S32x16x50x10 ![] bcast_S_S32x16x50x10 main_cst_0
  let main_v6 : IVec S32x16x50x10 1 := cmpf .olt main_v4 main_v5
  let main_c_1 : IVec S_ 1 := constantI S_ 1 1#1
  let main_v7 : IVec S_ 1 := (fun x v => Host.reduce IntOp.andi x v reducesTo_S32x16x50x10_S_d0_1_2_3 h_S_) main_v6 main_c_1
  let main_v8 : IVec S_ 1 := andi main_v3 main_v7
  let main_v9 : FVec F S10x512 .f32 := Host.absf main_arg2
  let main_cst_2 : FVec F S_ .f32 := constant S_ .f32 0x7F800000#32
  let main_v10 : FVec F S10x512 .f32 := broadcastInDim S10x512 ![] bcast_S_S10x512 main_cst_2
  let main_v11 : IVec S10x512 1 := cmpf .olt main_v9 main_v10
  let main_c_3 : IVec S_ 1 := constantI S_ 1 1#1
  let main_v12 : IVec S_ 1 := (fun x v => Host.reduce IntOp.andi x v reducesTo_S10x512_S_d0_1 h_S_) main_v11 main_c_3
  let main_v13 : IVec S_ 1 := andi main_v8 main_v12
  main_v13
-- ==== Kernel.lean ====
abbrev S32x16x50x512 : Shape := ⟨4, ![32, 16, 50, 512]⟩
abbrev S32x16x50x10 : Shape := ⟨4, ![32, 16, 50, 10]⟩
abbrev S10x512 : Shape := ⟨2, ![10, 512]⟩
abbrev S32x800x512 : Shape := ⟨3, ![32, 800, 512]⟩
abbrev S32x800x10 : Shape := ⟨3, ![32, 800, 10]⟩
abbrev S32x8x512 : Shape := ⟨3, ![32, 8, 512]⟩
abbrev S8x800x512 : Shape := ⟨3, ![8, 800, 512]⟩
abbrev S8x800x10 : Shape := ⟨3, ![8, 800, 10]⟩
abbrev S8x8x512 : Shape := ⟨3, ![8, 8, 512]⟩
abbrev S8x800 : Shape := ⟨2, ![8, 800]⟩
abbrev S8x800x1 : Shape := ⟨3, ![8, 800, 1]⟩
abbrev S8x10x512 : Shape := ⟨3, ![8, 10, 512]⟩
abbrev S8x10 : Shape := ⟨2, ![8, 10]⟩
abbrev S8x10x1 : Shape := ⟨3, ![8, 10, 1]⟩
abbrev S1x10x512 : Shape := ⟨3, ![1, 10, 512]⟩
abbrev S8x8 : Shape := ⟨2, ![8, 8]⟩
abbrev S8x8x1 : Shape := ⟨3, ![8, 8, 1]⟩
abbrev S32x4096 : Shape := ⟨2, ![32, 4096]⟩

abbrev nBuf : Space → Nat
  | .hbm => 7
  | .vmem => 7
  | .smem => 0
  | _ => 0

abbrev bufTy : (tb : Table) → Fin (tcTables nBuf tb) → BufTy
  | .hbm, ⟨0, _⟩ => ⟨S32x16x50x512, .f32⟩
  | .hbm, ⟨1, _⟩ => ⟨S32x16x50x10, .f32⟩
  | .hbm, ⟨2, _⟩ => ⟨S10x512, .f32⟩
  | .hbm, ⟨3, _⟩ => ⟨S32x800x512, .f32⟩
  | .hbm, ⟨4, _⟩ => ⟨S32x800x10, .f32⟩
  | .hbm, ⟨5, _⟩ => ⟨S32x8x512, .f32⟩
  | .hbm, ⟨6, _⟩ => ⟨S32x4096, .f32⟩
  | .local _ .vmem, ⟨0, _⟩ => ⟨S8x800x512, .f32⟩
  | .local _ .vmem, ⟨1, _⟩ => ⟨S8x800x512, .f32⟩
  | .local _ .vmem, ⟨2, _⟩ => ⟨S8x800x10, .f32⟩
  | .local _ .vmem, ⟨3, _⟩ => ⟨S8x800x10, .f32⟩
  | .local _ .vmem, ⟨4, _⟩ => ⟨S10x512, .f32⟩
  | .local _ .vmem, ⟨5, _⟩ => ⟨S8x8x512, .f32⟩
  | .local _ .vmem, ⟨6, _⟩ => ⟨S8x8x512, .f32⟩
  | _, _ => ⟨S32x16x50x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x800x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x800x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x16x50x512_S32x800x512 : S32x16x50x512.ShapeCasts S32x800x512
  shapeCasts_S32x16x50x10_S32x800x10 : S32x16x50x10.ShapeCasts S32x800x10
  inb_S8x800x512_S8x800x512_0_0_0 : ∀ a, (![0, 0, 0] : Fin 3 → Nat) a + S8x800x512.size a ≤ S8x800x512.size a
  h_S8x800x512 : 0 < S8x800x512.numel
  shapeCasts_S8x800x512_S8x800x512 : S8x800x512.ShapeCasts S8x800x512
  inb_S8x800x10_S8x800x10_0_0_0 : ∀ a, (![0, 0, 0] : Fin 3 → Nat) a + S8x800x10.size a ≤ S8x800x10.size a
  h_S8x800x10 : 0 < S8x800x10.numel
  shapeCasts_S8x800x10_S8x800x10 : S8x800x10.ShapeCasts S8x800x10
  inb_S10x512_S10x512_0_0 : ∀ a, (![0, 0] : Fin 2 → Nat) a + S10x512.size a ≤ S10x512.size a
  h_S10x512 : 0 < S10x512.numel
  reduces_S8x800x10_S8x800 : S8x800x10.Reduces [2] S8x800
  shapeCasts_S8x800_S8x800x1 : S8x800.ShapeCasts S8x800x1
  broadcasts_S8x800x1_S8x800x10 : S8x800x1.Broadcasts S8x800x10
  bitsLt_bf16_f32 : FTy.bits .bf16 < FTy.bits .f32
  reduces_S8x800x10_S8x10 : S8x800x10.Reduces [1] S8x10
  shapeCasts_S8x10_S8x10x1 : S8x10.ShapeCasts S8x10x1
  shapeCasts_S10x512_S1x10x512 : S10x512.ShapeCasts S1x10x512
  broadcasts_S8x10x1_S8x10x512 : S8x10x1.Broadcasts S8x10x512
  broadcasts_S1x10x512_S8x10x512 : S1x10x512.Broadcasts S8x10x512
  slices_S8x10x512_o0_0_0_S8x8x512 : S8x10x512.Slices ![0, 0, 0] S8x8x512
  reduces_S8x8x512_S8x8 : S8x8x512.Reduces [2] S8x8
  shapeCasts_S8x8_S8x8x1 : S8x8.ShapeCasts S8x8x1
  broadcasts_S8x8x1_S8x8x512 : S8x8x1.Broadcasts S8x8x512
  inb_S8x8x512_S8x8x512_0_0_0 : ∀ a, (![0, 0, 0] : Fin 3 → Nat) a + S8x8x512.size a ≤ S8x8x512.size a
  h_S8x8x512 : 0 < S8x8x512.numel
  shapeCasts_S32x8x512_S32x4096 : S32x8x512.ShapeCasts S32x4096
  dot_S8x800x10_S8x800x512_S8x10x512_1_1_2_2_0_0_wf : DotDims.WF S8x800x10 S8x800x512 S8x10x512 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x800x512.size a ≤ S32x800x512.size a
  hwx0_0 : ∀ i : grid0.Coords, EltTy.bits .f32 = 32 ∨ (Rect.block (s := S32x800x512) S8x800x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x800x10.size a ≤ S32x800x10.size a
  hwx0_1 : ∀ i : grid0.Coords, EltTy.bits .f32 = 32 ∨ (Rect.block (s := S32x800x10) S8x800x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x512.size a ≤ S10x512.size a
  hwx0_2 : ∀ i : grid0.Coords, EltTy.bits .f32 = 32 ∨ (Rect.block (s := S10x512) S10x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x8x512.size a ≤ S32x8x512.size a
  hwx0_3 : ∀ i : grid0.Coords, EltTy.bits .f32 = 32 ∨ (Rect.block (s := S32x8x512) S8x8x512.size (cc0_transform_3 i) (hinb0_3 i)).WholeWords (EltTy.packing .f32)

variable [Facts₀]

def dot_S8x800x10_S8x800x512_S8x10x512_1_1_2_2_0_0 : DotDims S8x800x10 S8x800x512 S8x10x512 where
  lhsContracting := [1]
  rhsContracting := [1]
  lhsNonContracting := [2]
  rhsNonContracting := [2]
  lhsBatch := [0]
  rhsBatch := [0]
  wf := dot_S8x800x10_S8x800x512_S8x10x512_1_1_2_2_0_0_wf

abbrev win0_0 : Pipeline.Window sig grid0 :=
  Pipeline.Window.ofSpec (Memref.whole main_v0) S8x800x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x800x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x16x50x512 : Shape := ⟨4, ![32, 16, 50, 512]⟩
abbrev S32x16x50x10 : Shape := ⟨4, ![32, 16, 50, 10]⟩
abbrev S10x512 : Shape := ⟨2, ![10, 512]⟩
abbrev S32x800x512 : Shape := ⟨3, ![32, 800, 512]⟩
abbrev S32x800x10 : Shape := ⟨3, ![32, 800, 10]⟩
abbrev S_ : Shape := ⟨0, ![]⟩
abbrev S32x800 : Shape := ⟨2, ![32, 800]⟩
abbrev S32x800x1 : Shape := ⟨3, ![32, 800, 1]⟩
abbrev S32x10x512 : Shape := ⟨3, ![32, 10, 512]⟩
abbrev S32x10 : Shape := ⟨2, ![32, 10]⟩
abbrev S32x10x1 : Shape := ⟨3, ![32, 10, 1]⟩
abbrev S1x10x512 : Shape := ⟨3, ![1, 10, 512]⟩
abbrev S32x8x512 : Shape := ⟨3, ![32, 8, 512]⟩
abbrev S32x8 : Shape := ⟨2, ![32, 8]⟩
abbrev S32x8x1 : Shape := ⟨3, ![32, 8, 1]⟩
abbrev S32x4096 : Shape := ⟨2, ![32, 4096]⟩

abbrev nBuf : Space → Nat
  | .hbm => 40
  | .vmem => 0
  | .smem => 0
  | _ => 0

abbrev bufTy : (tb : Table) → Fin (tcTables nBuf tb) → BufTy
  | .hbm, ⟨0, _⟩ => ⟨S32x16x50x512, .f32⟩
  | .hbm, ⟨1, _⟩ => ⟨S32x16x50x10, .f32⟩
  | .hbm, ⟨2, _⟩ => ⟨S10x512, .f32⟩
  | .hbm, ⟨3, _⟩ => ⟨S32x800x512, .f32⟩
  | .hbm, ⟨4, _⟩ => ⟨S32x800x10, .f32⟩
  | .hbm, ⟨5, _⟩ => ⟨S_, .f32⟩
  | .hbm, ⟨6, _⟩ => ⟨S32x800, .f32⟩
  | .hbm, ⟨7, _⟩ => ⟨S_, .f32⟩
  | .hbm, ⟨8, _⟩ => ⟨S32x800, .f32⟩
  | .hbm, ⟨9, _⟩ => ⟨S32x800, .f32⟩
  | .hbm, ⟨10, _⟩ => ⟨S32x800x1, .f32⟩
  | .hbm, ⟨11, _⟩ => ⟨S32x800x10, .f32⟩
  | .hbm, ⟨12, _⟩ => ⟨S32x800x10, .f32⟩
  | .hbm, ⟨13, _⟩ => ⟨S32x800x10, .f32⟩
  | .hbm, ⟨14, _⟩ => ⟨S_, .f32⟩
  | .hbm, ⟨15, _⟩ => ⟨S32x800, .f32⟩
  | .hbm, ⟨16, _⟩ => ⟨S32x800x1, .f32⟩
  | .hbm, ⟨17, _⟩ => ⟨S32x800x10, .f32⟩
  | .hbm, ⟨18, _⟩ => ⟨S32x800x10, .f32⟩
  | .hbm, ⟨19, _⟩ => ⟨S32x10x512, .f32⟩
  | .hbm, ⟨20, _⟩ => ⟨S_, .f32⟩
  | .hbm, ⟨21, _⟩ => ⟨S32x10, .f32⟩
  | .hbm, ⟨22, _⟩ => ⟨S32x10x1, .f32⟩
  | .hbm, ⟨23, _⟩ => ⟨S1x10x512, .f32⟩
  | .hbm, ⟨24, _⟩ => ⟨S32x10x512, .f32⟩
  | .hbm, ⟨25, _⟩ => ⟨S32x10x512, .f32⟩
  | .hbm, ⟨26, _⟩ => ⟨S32x10x512, .f32⟩
  | .hbm, ⟨27, _⟩ => ⟨S32x10x512, .f32⟩
  | .hbm, ⟨28, _⟩ => ⟨S32x8x512, .f32⟩
  | .hbm, ⟨29, _⟩ => ⟨S32x8x512, .f32⟩
  | .hbm, ⟨30, _⟩ => ⟨S_, .f32⟩
  | .hbm, ⟨31, _⟩ => ⟨S32x8, .f32⟩
  | .hbm, ⟨32, _⟩ => ⟨S32x8x1, .f32⟩
  | .hbm, ⟨33, _⟩ => ⟨S_, .f32⟩
  | .hbm, ⟨34, _⟩ => ⟨S32x8x1, .f32⟩
  | .hbm, ⟨35, _⟩ => ⟨S32x8x1, .f32⟩
  | .hbm, ⟨36, _⟩ => ⟨S32x8x1, .f32⟩
  | .hbm, ⟨37, _⟩ => ⟨S32x8x512, .f32⟩
  | .hbm, ⟨38, _⟩ => ⟨S32x8x512, .f32⟩
  | .hbm, ⟨39, _⟩ => ⟨S32x4096, .f32⟩
  | _, _ => ⟨S32x16x50x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  shapeCasts_S32x16x50x512_S32x800x512 : S32x16x50x512.ShapeCasts S32x800x512
  shapeCasts_S32x16x50x10_S32x800x10 : S32x16x50x10.ShapeCasts S32x800x10
  reducesTo_S32x800x10_S32x800_d2 : S32x800x10.ReducesTo [2] S32x800
  h_S_ : 0 < S_.numel
  bcast_S_S32x800 : S_.BroadcastsInDim S32x800 (![] : Fin 0 → Fin S32x800.rank)
  bcast_S32x800_S32x800x1_0_1 : S32x800.BroadcastsInDim S32x800x1 (![0, 1] : Fin 2 → Fin S32x800x1.rank)
  bcast_S32x800x1_S32x800x10_0_1_2 : S32x800x1.BroadcastsInDim S32x800x10 (![0, 1, 2] : Fin 3 → Fin S32x800x10.rank)
  reducesTo_S32x800x10_S32x10_d1 : S32x800x10.ReducesTo [1] S32x10
  bcast_S32x10_S32x10x1_0_1 : S32x10.BroadcastsInDim S32x10x1 (![0, 1] : Fin 2 → Fin S32x10x1.rank)
  bcast_S10x512_S1x10x512_1_2 : S10x512.BroadcastsInDim S1x10x512 (![1, 2] : Fin 2 → Fin S1x10x512.rank)
  bcast_S32x10x1_S32x10x512_0_1_2 : S32x10x1.BroadcastsInDim S32x10x512 (![0, 1, 2] : Fin 3 → Fin S32x10x512.rank)
  bcast_S1x10x512_S32x10x512_0_1_2 : S1x10x512.BroadcastsInDim S32x10x512 (![0, 1, 2] : Fin 3 → Fin S32x10x512.rank)
  slices_S32x10x512_S32x8x512_0_0_0 : S32x10x512.Slices ![0, 0, 0] S32x8x512
  reducesTo_S32x8x512_S32x8_d2 : S32x8x512.ReducesTo [2] S32x8
  bcast_S32x8_S32x8x1_0_1 : S32x8.BroadcastsInDim S32x8x1 (![0, 1] : Fin 2 → Fin S32x8x1.rank)
  bcast_S_S32x8x1 : S_.BroadcastsInDim S32x8x1 (![] : Fin 0 → Fin S32x8x1.rank)
  bcast_S32x8x1_S32x8x512_0_1_2 : S32x8x1.BroadcastsInDim S32x8x512 (![0, 1, 2] : Fin 3 → Fin S32x8x512.rank)
  shapeCasts_S32x8x512_S32x4096 : S32x8x512.ShapeCasts S32x4096
  dot_S32x800x10_S32x800x512_S32x10x512_1_1_2_2_0_0_wf : DotDims.WF S32x800x10 S32x800x512 S32x10x512 [1] [1] [2] [2] [0] [0]

variable [Facts₀]

def dot_S32x800x10_S32x800x512_S32x10x512_1_1_2_2_0_0 : DotDims S32x800x10 S32x800x512 S32x10x512 where
  lhsContracting := [1]
  rhsContracting := [1]
  lhsNonContracting := [2]
  rhsNonContracting := [2]
  lhsBatch := [0]
  rhsBatch := [0]
  wf := dot_S32x800x10_S32x800x512_S32x10x512_1_1_2_2_0_0_wf

class Facts : Prop extends Facts₀ where

variable [Facts]
-- ==== Proof.Spec.lean ====
/- The mathematics both programs compute, for ONE batch element, as plain functions of coordinates.

   A batch element has 800 positions; position `t` carries a feature row `f t : Fin 512 → EReal` and ten
   cluster scores `sc t : Fin 10 → EReal`. The soft assignment of a position is the softmax of its scores
   (the largest score taken off first, from −∞). For cluster `k` and feature `d` the residual is
       (∑ t, A t k · f t d) − (∑ t, A t k) · c k d,
   only the first eight clusters are kept, and each kept cluster's residual row is divided by
       sqrt (max (∑ d, r d · r d) ε),   ε the f32 word 0x2B8CBCCC (the same word in both programs).
   `pooled` is that function laid out over the [32, 8, 512] result. -/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Vlad

/-- The largest of a position's ten scores, from −∞. -/
def rowMax (r : Fin 10 → EReal) : EReal :=
  (Finset.univ : Finset (Fin 10)).fold max (Ideal.ofBits .f32 0xFF800000#32) r

/-- A score's exponential once the position's largest score is taken off. -/
def expo (r : Fin 10 → EReal) (j : Fin 10) : EReal := Ideal.exp (r j - rowMax r)

/-- The soft assignment of a position to cluster `j`: the softmax of its scores. -/
def assign (r : Fin 10 → EReal) (j : Fin 10) : EReal := Ideal.div (expo r j) (∑ j' : Fin 10, expo r j')

/-- Cluster `k`'s residual at feature `d`: the assignment-weighted sum of the features less the summed
    assignments times the centre. -/
def resid (f : Fin 800 → Fin 512 → EReal) (sc : Fin 800 → Fin 10 → EReal) (c : Fin 10 → Fin 512 → EReal)
    (k : Fin 10) (d : Fin 512) : EReal :=
  (∑ t : Fin 800, assign (sc t) k * f t d) - (∑ t : Fin 800, assign (sc t) k) * c k d

/-- One of the eight kept clusters, among the ten. -/
def keep (k : Fin 8) : Fin 10 := ⟨k.val, Nat.lt_of_lt_of_le k.isLt (by decide)⟩

/-- A kept cluster's residual row divided by its floored Euclidean length. -/
def normed (f : Fin 800 → Fin 512 → EReal) (sc : Fin 800 → Fin 10 → EReal) (c : Fin 10 → Fin 512 → EReal)
    (k : Fin 8) (d : Fin 512) : EReal :=
  Ideal.div (resid f sc c (keep k) d)
    (Ideal.sqrt (max (∑ d' : Fin 512, resid f sc c (keep k) d' * resid f sc c (keep k) d')
      (Ideal.ofBits .f32 0x2B8CBCCC#32)))

/-- The whole result over [32, 8, 512]: batch element `b` reads rows `b` of the features and of the scores. -/
def pooled (x : (⟨3, ![32, 800, 512]⟩ : Shape).Idx → EReal) (s : (⟨3, ![32, 800, 10]⟩ : Shape).Idx → EReal)
    (c : (⟨2, ![10, 512]⟩ : Shape).Idx → EReal) : (⟨3, ![32, 8, 512]⟩ : Shape).Idx → EReal :=
  fun i => normed (fun t d => x (ix3 (i 0 : Fin 32) t d)) (fun t j => s (ix3 (i 0 : Fin 32) t j))
    (fun k d => c (ix2 k d)) (i 1 : Fin 8) (i 2 : Fin 512)

/-- −∞ is the identity of `max`. -/
theorem negInf_max (y : EReal) : max (Ideal.ofBits .f32 0xFF800000#32) y = y := by
  simp [Ideal.ofBits, Ideal.ieee]

/-- `normed` depends on its three arguments only through their values. -/
theorem normed_congr {f f' : Fin 800 → Fin 512 → EReal} {sc sc' : Fin 800 → Fin 10 → EReal}
    {c c' : Fin 10 → Fin 512 → EReal} (hf : ∀ t d, f t d = f' t d) (hs : ∀ t j, sc t j = sc' t j)
    (hc : ∀ k d, c k d = c' k d) (k : Fin 8) (d : Fin 512) : normed f sc c k d = normed f' sc' c' k d := by
  have e1 : f = f' := funext fun t => funext fun d => hf t d
  have e2 : sc = sc' := funext fun t => funext fun j => hs t j
  have e3 : c = c' := funext fun k => funext fun d => hc k d
  rw [e1, e2, e3]

end Cert.Vlad

end
-- ==== Proof.LibAxisReads.lean ====
/- Reading a rank-3 array along one axis, index by index: the keepdims-then-broadcast pairs
   ([A,B] → [A,B,1] → [A,B,C] and [B,C] → [1,B,C] → [A,B,C]), and a sum or a maximum taken along the last or
   the middle axis, each stated at an index written by its coordinates. Generic in the extents. -/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.AxisReads

open Idealize.ShloMosaic Idealize.ShloMosaic.ValueIdx

section Layout
variable {α : Type}

/-- A trailing unit axis added by a shape cast: the entry at (a, b, 0) is the entry at (a, b). -/
theorem keepLast_apply {A B : Nat} (v : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ v h (ix3 a b u) = v (ix2 a b) :=
  shapeCast_apply v h _ _ (by
    have hu : u.val = 0 := by omega
    rw [Shape.rowMajor_val_two, Shape.rowMajor_val_three]
    show a.val * B + b.val = (a.val * B + b.val) * 1 + u.val
    rw [hu, Nat.mul_one, Nat.add_zero])

/-- A trailing unit axis broadcast to extent C: the entry at (a, b, c) is the entry at (a, b, 0). -/
theorem bcastLast_apply {A B C : Nat} (hA : A ≠ 1) (hB : B ≠ 1) (w : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ w h (ix3 a b c) = w (ix3 a b (0 : Fin 1)) :=
  broadcastTo_apply w h (ix3 a b c) (ix3 a b (0 : Fin 1)) (fun x => match x with
    | ⟨0, _⟩ => by show a.val = if A = 1 then 0 else a.val; rw [if_neg hA]
    | ⟨1, _⟩ => by show b.val = if B = 1 then 0 else b.val; rw [if_neg hB]
    | ⟨2, _⟩ => by show 0 = if (1 : Nat) = 1 then 0 else c.val; rw [if_pos rfl])

/-- The two together: a value per (a, b) spread along a new last axis. -/
theorem spreadLast_apply {A B C : Nat} (hA : A ≠ 1) (hB : B ≠ 1) (v : (⟨2, ![A, B]⟩ : Shape).Idx → α)
    (h1 : (⟨2, ![A, B]⟩ : Shape).ShapeCasts ⟨3, ![A, B, 1]⟩)
    (h2 : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v h1) h2 (ix3 a b c) = v (ix2 a b) :=
  (bcastLast_apply hA hB _ h2 a b c).trans (keepLast_apply v h1 a b 0)

/-- A matrix given a leading unit axis and broadcast along it: the entry at (a, b, c) is the matrix's at (b, c). -/
theorem spreadLead_apply {A B C : Nat} (hB : B ≠ 1) (hC : C ≠ 1) (v : (⟨2, ![B, C]⟩ : Shape).Idx → α)
    (h1 : (⟨2, ![B, C]⟩ : Shape).ShapeCasts ⟨3, ![1, B, C]⟩)
    (h2 : (⟨3, ![1, B, C]⟩ : Shape).Broadcasts ⟨3, ![A, B, C]⟩) (a : Fin A) (b : Fin B) (c : Fin C) :
    broadcastTo ⟨3, ![A, B, C]⟩ (shapeCast ⟨3, ![1, B, C]⟩ v h1) h2 (ix3 a b c) = v (ix2 b c) :=
  (broadcastTo_apply _ h2 (ix3 a b c) (ix3 (0 : Fin 1) b c) (fun x => match x with
    | ⟨0, _⟩ => by show 0 = if (1 : Nat) = 1 then 0 else a.val; rw [if_pos rfl]
    | ⟨1, _⟩ => by show b.val = if B = 1 then 0 else b.val; rw [if_neg hB]
    | ⟨2, _⟩ => by show c.val = if C = 1 then 0 else c.val; rw [if_neg hC])).trans
    (shapeCast_ab_1ab_apply v h1 0 b c)

end Layout

section Lifts

/-- The reduced index (a, b) with coordinate k put back on the LAST axis is (a, b, k). -/
theorem lift_last {A B C : Nat} (h : (⟨3, ![A, B, C]⟩ : Shape).Reduces [2] ⟨2, ![A, B]⟩) (a : Fin A) (b : Fin B)
    (k : Fin ((⟨3, ![A, B, C]⟩ : Shape).size 2)) : h.lift (ix2 a b) k = ix3 a b (⟨k.val, k.isLt⟩ : Fin C) := by
  funext c; apply Fin.ext
  fin_cases c <;> rfl

/-- The reduced index (a, c) with coordinate k put back on the MIDDLE axis is (a, k, c). -/
theorem lift_mid {A B C : Nat} (h : (⟨3, ![A, B, C]⟩ : Shape).Reduces [1] ⟨2, ![A, C]⟩) (a : Fin A) (c : Fin C)
    (k : Fin ((⟨3, ![A, B, C]⟩ : Shape).size 1)) : h.lift (ix2 a c) k = ix3 a (⟨k.val, k.isLt⟩ : Fin B) c := by
  funext x; apply Fin.ext
  fin_cases x <;> rfl

end Lifts

section Reductions
variable {φ : FTy}

/-- A lane sum along the last axis, at (a, b): the sum over k of the entries (a, b, k). -/
theorem sumLast_apply {A B C : Nat} (src : FVec Ideal ⟨3, ![A, B, C]⟩ φ) (acc : BitVec φ.bits)
    (h : (⟨3, ![A, B, C]⟩ : Shape).Reduces [2] ⟨2, ![A, B]⟩) (hφ : FKind.Formats φ)
    (hacc : acc = FKind.add.neutral φ hφ) (a : Fin A) (b : Fin B) :
    multiReduction .add [2] ⟨2, ![A, B]⟩ src acc h hφ hacc (ix2 a b) = ∑ k : Fin C, src (ix3 a b k) := by
  rw [Ideal.multiReduction_add_single]
  exact Finset.sum_congr rfl fun k _ => congrArg src (lift_last h a b k)

/-- A sum along the middle axis, at (a, c): the sum over k of the entries (a, k, c). -/
theorem sumMid_apply {A B C : Nat} (src : FVec Ideal ⟨3, ![A, B, C]⟩ φ) (acc : BitVec φ.bits)
    (h : (⟨3, ![A, B, C]⟩ : Shape).Reduces [1] ⟨2, ![A, C]⟩) (hφ : FKind.Formats φ)
    (hacc : acc = FKind.add.neutral φ hφ) (a : Fin A) (c : Fin C) :
    multiReduction .add [1] ⟨2, ![A, C]⟩ src acc h hφ hacc (ix2 a c) = ∑ k : Fin B, src (ix3 a k c) := by
  rw [Ideal.multiReduction_add_single]
  exact Finset.sum_congr rfl fun k _ => congrArg src (lift_mid h a c k)

/-- A lane maximum along the last axis, at (a, b): the fold of `max` from the accumulator's value over the
    entries (a, b, k). -/
theorem maxLast_apply {A B C : Nat} (src : FVec Ideal ⟨3, ![A, B, C]⟩ φ) (acc : BitVec φ.bits)
    (h : (⟨3, ![A, B, C]⟩ : Shape).Reduces [2] ⟨2, ![A, B]⟩) (hφ : FKind.Formats φ)
    (hacc : acc = FKind.maximumf.neutral φ hφ) (a : Fin A) (b : Fin B) :
    multiReduction .maximumf [2] ⟨2, ![A, B]⟩ src acc h hφ hacc (ix2 a b)
      = (Finset.univ : Finset (Fin C)).fold max (Ideal.ofBits φ acc) (fun k => src (ix3 a b k)) := by
  rw [Ideal.multiReduction_maximumf_single]
  exact congrArg (fun f => Finset.fold max (Ideal.ofBits φ acc) f (Finset.univ : Finset (Fin C)))
    (funext fun k => congrArg src (lift_last h a b k))

/-- The host's reduce by maximum along the last axis, at (a, b): the same fold from the initial value. -/
theorem hostMaxLast_apply {A B C : Nat} {u : Shape} (x : FVec Ideal ⟨3, ![A, B, C]⟩ φ) (init : u.Idx → Ideal φ)
    (h' : (⟨3, ![A, B, C]⟩ : Shape).ReducesTo [2] ⟨2, ![A, B]⟩) (h : (⟨3, ![A, B, C]⟩ : Shape).Reduces [2] ⟨2, ![A, B]⟩)
    (hu : 0 < u.numel) (a : Fin A) (b : Fin B) :
    Host.reduce (FloatOps.maximumf (F := Ideal) (φ := φ)) x init h' hu (ix2 a b)
      = (Finset.univ : Finset (Fin C)).fold max (init (Shape.Idx.first hu)) (fun k => x (ix3 a b k)) := by
  rw [Host.reduce_eq_fold_single (FloatOps.maximumf (F := Ideal) (φ := φ)) x init h' h hu]
  exact congrArg (fun f => Finset.fold max (init (Shape.Idx.first hu)) f (Finset.univ : Finset (Fin C)))
    (funext fun k => congrArg x (lift_last h a b k))

end Reductions

end Idealize.ShloMosaic.AxisReads

end
-- ==== Proof.Payload.lean ====
/- The kernel body's stored value, read at one index of its [8, 8, 512] block.

   The body's arithmetic is cut into the pieces its mathematics has: each position's largest score, the shifted
   exponentials, their row sums, the soft assignment, the assignment-weighted feature sums (one batched product
   contracting the 800 positions), the summed assignments, the residual, the eight kept clusters, each kept row's
   sum of squares and its floored length. Each piece is read at an index written by coordinates, and the body's
   payload is the kept residual over the floored length: the specification's `normed` of the block's rows. -/
import proofs.«106558_j66194035966256_1_alg».proof.Proof.Gen.KernelIdeal.Skeleton
import proofs.«106558_j66194035966256_1_alg».proof.Proof.Spec
import proofs.«106558_j66194035966256_1_alg».proof.Proof.LibAxisReads

noncomputable section

open scoped BigOperators

namespace Cert.KernelIdeal.Body

open Cert.KernelIdeal Cert.KernelIdeal.Gen Cert.Vlad
open Idealize.ShloMosaic Idealize.ShloMosaic.ValueIdx Idealize.ShloMosaic.AxisReads

/-! ## The pieces, as vectors (at any float instance) -/

section Pieces
variable {F : FTy → Type} [FloatOps F]

/-- Each position's largest score. -/
def rowTop (x1 : Vec F S8x800x10 .f32) : FVec F S8x800 .f32 :=
  have v3 : FVec F S8x800x10 .f32 := shapeCast S8x800x10 x1 shapeCasts_S8x800x10_S8x800x10
  multiReduction .maximumf [2] S8x800 v3 0xFF800000#32 reduces_S8x800x10_S8x800 (.inl rfl) rfl

/-- The scores' exponentials after the position's largest is taken off. -/
def expd (x1 : Vec F S8x800x10 .f32) : FVec F S8x800x10 .f32 :=
  have v3 : FVec F S8x800x10 .f32 := shapeCast S8x800x10 x1 shapeCasts_S8x800x10_S8x800x10
  have v6 : FVec F S8x800x1 .f32 := shapeCast S8x800x1 (rowTop x1) shapeCasts_S8x800_S8x800x1
  have v7 : FVec F S8x800x10 .f32 := broadcastTo S8x800x10 v6 broadcasts_S8x800x1_S8x800x10
  exp (subf v3 v7)

/-- Their sum at each position. -/
def rowSum (x1 : Vec F S8x800x10 .f32) : FVec F S8x800 .f32 :=
  multiReduction .add [2] S8x800 (expd x1) 0x00000000#32 reduces_S8x800x10_S8x800 (.inl rfl) rfl

/-- The soft assignment. -/
def soft (x1 : Vec F S8x800x10 .f32) : FVec F S8x800x10 .f32 :=
  have v11 : FVec F S8x800x1 .f32 := shapeCast S8x800x1 (rowSum x1) shapeCasts_S8x800_S8x800x1
  have v12 : FVec F S8x800x10 .f32 := broadcastTo S8x800x10 v11 broadcasts_S8x800x1_S8x800x10
  divf (expd x1) v12

/-- The assignment-weighted sums of the features over the positions. -/
def weighted (x0 : Vec F S8x800x512 .f32) (x1 : Vec F S8x800x10 .f32) : FVec F S8x10x512 .f32 :=
  have v1 : FVec F S8x800x512 .f32 := shapeCast S8x800x512 x0 shapeCasts_S8x800x512_S8x800x512
  have v14 : FVec F S8x800x10 .bf16 := truncf .bf16 (soft x1) bitsLt_bf16_f32
  have v15 : FVec F S8x800x512 .bf16 := truncf .bf16 v1 bitsLt_bf16_f32
  have cst_8 : FVec F S8x10x512 .f32 := constant S8x10x512 .f32 0x00000000#32
  matmul dot_S8x800x10_S8x800x512_S8x10x512_1_1_2_2_0_0 none v14 v15 cst_8

/-- The assignments summed over the positions. -/
def mass (x1 : Vec F S8x800x10 .f32) : FVec F S8x10 .f32 :=
  multiReduction .add [1] S8x10 (soft x1) 0x00000000#32 reduces_S8x800x10_S8x10 (.inl rfl) rfl

/-- The residual of every cluster. -/
def residual (x0 : Vec F S8x800x512 .f32) (x1 : Vec F S8x800x10 .f32) (x2 : Vec F S10x512 .f32) : FVec F S8x10x512 .f32 :=
  have v18 : FVec F S8x10x1 .f32 := shapeCast S8x10x1 (mass x1) shapeCasts_S8x10_S8x10x1
  have v19 : FVec F S1x10x512 .f32 := shapeCast S1x10x512 x2 shapeCasts_S10x512_S1x10x512
  have v20 : FVec F S8x10x512 .f32 := broadcastTo S8x10x512 v18 broadcasts_S8x10x1_S8x10x512
  have v21 : FVec F S8x10x512 .f32 := broadcastTo S8x10x512 v19 broadcasts_S1x10x512_S8x10x512
  subf (weighted x0 x1) (mulf v20 v21)

/-- The first eight clusters' residuals. -/
def kept (x0 : Vec F S8x800x512 .f32) (x1 : Vec F S8x800x10 .f32) (x2 : Vec F S10x512 .f32) : FVec F S8x8x512 .f32 :=
  extractStridedSlice S8x8x512 ![0, 0, 0] (residual x0 x1 x2) slices_S8x10x512_o0_0_0_S8x8x512

/-- Each kept row's sum of squares. -/
def energy (x0 : Vec F S8x800x512 .f32) (x1 : Vec F S8x800x10 .f32) (x2 : Vec F S10x512 .f32) : FVec F S8x8 .f32 :=
  multiReduction .add [2] S8x8 (mulf (kept x0 x1 x2) (kept x0 x1 x2)) 0x00000000#32 reduces_S8x8x512_S8x8 (.inl rfl) rfl

/-- Each kept row's length, floored at the square root of ε. -/
def floorLen (x0 : Vec F S8x800x512 .f32) (x1 : Vec F S8x800x10 .f32) (x2 : Vec F S10x512 .f32) : FVec F S8x8x1 .f32 :=
  have v27 : FVec F S8x8x1 .f32 := shapeCast S8x8x1 (energy x0 x1 x2) shapeCasts_S8x8_S8x8x1
  have cst_11 : F .f32 := Scalar.ofBits .f32 0x2B8CBCCC#32
  have v28 : FVec F S8x8x1 .f32 := broadcast S8x8x1 cst_11
  sqrt (maximumf v27 v28)

/-- The body's payload is the kept residual over the floored length, spread along the features. -/
theorem pay_eq (x0 : Vec F S8x800x512 .f32) (x1 : Vec F S8x800x10 .f32) (x2 : Vec F S10x512 .f32) :
    k0_pay1 x0 x1 x2 = divf (kept x0 x1 x2) (broadcastTo S8x8x512 (floorLen x0 x1 x2) broadcasts_S8x8x1_S8x8x512) := rfl

end Pieces

/-! ## The pieces at an index, over the extended reals -/

theorem rowTop_apply (x1 : Vec Ideal S8x800x10 .f32) (b : Fin 8) (t : Fin 800) :
    rowTop x1 (ix2 b t) = rowMax (fun j => x1 (ix3 b t j)) := by
  unfold rowTop rowMax
  rw [shapeCast_self]
  exact maxLast_apply x1 _ _ _ _ b t

theorem expd_apply (x1 : Vec Ideal S8x800x10 .f32) (b : Fin 8) (t : Fin 800) (j : Fin 10) :
    expd x1 (ix3 b t j) = expo (fun j' => x1 (ix3 b t j')) j := by
  unfold expd expo
  rw [shapeCast_self]
  show Ideal.exp (x1 (ix3 b t j) - broadcastTo S8x800x10 (shapeCast S8x800x1 (rowTop x1) _) _ (ix3 b t j)) = _
  rw [spreadLast_apply (A := 8) (B := 800) (by decide) (by decide), rowTop_apply]

theorem rowSum_apply (x1 : Vec Ideal S8x800x10 .f32) (b : Fin 8) (t : Fin 800) :
    rowSum x1 (ix2 b t) = ∑ j : Fin 10, expo (fun j' => x1 (ix3 b t j')) j := by
  unfold rowSum
  refine (sumLast_apply (A := 8) (B := 800) (C := 10) (expd x1) _ _ _ _ b t).trans ?_
  exact Finset.sum_congr rfl fun j _ => expd_apply x1 b t j

theorem soft_apply (x1 : Vec Ideal S8x800x10 .f32) (b : Fin 8) (t : Fin 800) (j : Fin 10) :
    soft x1 (ix3 b t j) = assign (fun j' => x1 (ix3 b t j')) j := by
  unfold soft assign
  show Ideal.div (expd x1 (ix3 b t j)) (broadcastTo S8x800x10 (shapeCast S8x800x1 (rowSum x1) _) _ (ix3 b t j)) = _
  rw [spreadLast_apply (A := 8) (B := 800) (by decide) (by decide), rowSum_apply, expd_apply]

/-! The batched product's operand indices: batch axis 0 on both sides, the positions contracted, the cluster
    axis from the left operand and the feature axis from the right. -/

theorem lhs_mm_0 (i : S8x10x512.Idx) (q : dot_S8x800x10_S8x800x512_S8x10x512_1_1_2_2_0_0.contr.Idx) :
    (dot_S8x800x10_S8x800x512_S8x10x512_1_1_2_2_0_0.lhsIdx i q 0).val = (i 0).val := by
  unfold DotDims.lhsIdx
  rw [dif_pos (show (0 : Fin S8x800x10.rank) ∈ dot_S8x800x10_S8x800x512_S8x10x512_1_1_2_2_0_0.lhsBatch by decide)]
  rfl
theorem lhs_mm_1 (i : S8x10x512.Idx) (q : dot_S8x800x10_S8x800x512_S8x10x512_1_1_2_2_0_0.contr.Idx) :
    (dot_S8x800x10_S8x800x512_S8x10x512_1_1_2_2_0_0.lhsIdx i q 1).val = (q ⟨0, by decide⟩).val :=
  dot_S8x800x10_S8x800x512_S8x10x512_1_1_2_2_0_0.lhsIdx_val_of_single rfl i q
theorem lhs_mm_2 (i : S8x10x512.Idx) (q : dot_S8x800x10_S8x800x512_S8x10x512_1_1_2_2_0_0.contr.Idx) :
    (dot_S8x800x10_S8x800x512_S8x10x512_1_1_2_2_0_0.lhsIdx i q 2).val = (i 1).val := by
  unfold DotDims.lhsIdx
  rw [dif_neg (show ¬(2 : Fin S8x800x10.rank) ∈ dot_S8x800x10_S8x800x512_S8x10x512_1_1_2_2_0_0.lhsBatch by decide), dif_pos (show (2 : Fin S8x800x10.rank) ∈ dot_S8x800x10_S8x800x512_S8x10x512_1_1_2_2_0_0.lhsNonContracting by decide)]
  rfl
theorem rhs_mm_0 (i : S8x10x512.Idx) (q : dot_S8x800x10_S8x800x512_S8x10x512_1_1_2_2_0_0.contr.Idx) :
    (dot_S8x800x10_S8x800x512_S8x10x512_1_1_2_2_0_0.rhsIdx i q 0).val = (i 0).val := by
  unfold DotDims.rhsIdx
  rw [dif_pos (show (0 : Fin S8x800x512.rank) ∈ dot_S8x800x10_S8x800x512_S8x10x512_1_1_2_2_0_0.rhsBatch by decide)]
  rfl
theorem rhs_mm_1 (i : S8x10x512.Idx) (q : dot_S8x800x10_S8x800x512_S8x10x512_1_1_2_2_0_0.contr.Idx) :
    (dot_S8x800x10_S8x800x512_S8x10x512_1_1_2_2_0_0.rhsIdx i q 1).val = (q ⟨0, by decide⟩).val :=
  dot_S8x800x10_S8x800x512_S8x10x512_1_1_2_2_0_0.rhsIdx_val_of_single rfl i q
theorem rhs_mm_2 (i : S8x10x512.Idx) (q : dot_S8x800x10_S8x800x512_S8x10x512_1_1_2_2_0_0.contr.Idx) :
    (dot_S8x800x10_S8x800x512_S8x10x512_1_1_2_2_0_0.rhsIdx i q 2).val = (i 2).val := by
  unfold DotDims.rhsIdx
  rw [dif_neg (show ¬(2 : Fin S8x800x512.rank) ∈ dot_S8x800x10_S8x800x512_S8x10x512_1_1_2_2_0_0.rhsBatch by decide), dif_pos (show (2 : Fin S8x800x512.rank) ∈ dot_S8x800x10_S8x800x512_S8x10x512_1_1_2_2_0_0.rhsNonContracting by decide)]
  rfl

theorem weighted_apply (x0 : Vec Ideal S8x800x512 .f32) (x1 : Vec Ideal S8x800x10 .f32) (b : Fin 8) (k : Fin 10) (d : Fin 512) :
    weighted x0 x1 (ix3 b k d) = ∑ t : Fin 800, assign (fun j => x1 (ix3 b t j)) k * x0 (ix3 b t d) := by
  unfold weighted
  rw [shapeCast_self]
  show FloatOps.matmul dot_S8x800x10_S8x800x512_S8x10x512_1_1_2_2_0_0 none (truncf .bf16 (soft x1) bitsLt_bf16_f32) (truncf .bf16 x0 bitsLt_bf16_f32)
      (constant S8x10x512 .f32 0x00000000#32) (ix3 b k d) = _
  rw [Ideal.matmul_constant_zero_apply, ← Equiv.sum_comp (contrEquiv1 dot_S8x800x10_S8x800x512_S8x10x512_1_1_2_2_0_0 800 rfl rfl).symm]
  refine Finset.sum_congr rfl fun t _ => ?_
  have hk := contrEquiv1_symm_val dot_S8x800x10_S8x800x512_S8x10x512_1_1_2_2_0_0 800 rfl rfl t
  have el : dot_S8x800x10_S8x800x512_S8x10x512_1_1_2_2_0_0.lhsIdx (ix3 b k d) ((contrEquiv1 dot_S8x800x10_S8x800x512_S8x10x512_1_1_2_2_0_0 800 rfl rfl).symm t) = ix3 b t k := funext fun a => Fin.ext (by
    match a with
    | ⟨0, _⟩ => exact lhs_mm_0 _ _
    | ⟨1, _⟩ => exact (lhs_mm_1 _ _).trans hk
    | ⟨2, _⟩ => exact lhs_mm_2 _ _)
  have er : dot_S8x800x10_S8x800x512_S8x10x512_1_1_2_2_0_0.rhsIdx (ix3 b k d) ((contrEquiv1 dot_S8x800x10_S8x800x512_S8x10x512_1_1_2_2_0_0 800 rfl rfl).symm t) = ix3 b t d := funext fun a => Fin.ext (by
    match a with
    | ⟨0, _⟩ => exact rhs_mm_0 _ _
    | ⟨1, _⟩ => exact (rhs_mm_1 _ _).trans hk
    | ⟨2, _⟩ => exact rhs_mm_2 _ _)
  rw [el, er]
  show soft x1 (ix3 b t k) * x0 (ix3 b t d) = _
  rw [soft_apply]

theorem mass_apply (x1 : Vec Ideal S8x800x10 .f32) (b : Fin 8) (k : Fin 10) :
    mass x1 (ix2 b k) = ∑ t : Fin 800, assign (fun j => x1 (ix3 b t j)) k := by
  unfold mass
  refine (sumMid_apply (A := 8) (B := 800) (C := 10) (soft x1) _ _ _ _ b k).trans ?_
  exact Finset.sum_congr rfl fun t _ => soft_apply x1 b t k

theorem residual_apply (x0 : Vec Ideal S8x800x512 .f32) (x1 : Vec Ideal S8x800x10 .f32) (x2 : Vec Ideal S10x512 .f32)
    (b : Fin 8) (k : Fin 10) (d : Fin 512) :
    residual x0 x1 x2 (ix3 b k d)
      = resid (fun t d' => x0 (ix3 b t d')) (fun t j => x1 (ix3 b t j)) (fun k' d' => x2 (ix2 k' d')) k d := by
  unfold residual resid
  show weighted x0 x1 (ix3 b k d)
      - broadcastTo S8x10x512 (shapeCast S8x10x1 (mass x1) _) _ (ix3 b k d)
        * broadcastTo S8x10x512 (shapeCast S1x10x512 x2 _) _ (ix3 b k d) = _
  rw [spreadLast_apply (A := 8) (B := 10) (by decide) (by decide),
    spreadLead_apply (B := 10) (C := 512) (by decide) (by decide), weighted_apply, mass_apply]

theorem kept_apply (x0 : Vec Ideal S8x800x512 .f32) (x1 : Vec Ideal S8x800x10 .f32) (x2 : Vec Ideal S10x512 .f32)
    (b : Fin 8) (k : Fin 8) (d : Fin 512) :
    kept x0 x1 x2 (ix3 b k d)
      = resid (fun t d' => x0 (ix3 b t d')) (fun t j => x1 (ix3 b t j)) (fun k' d' => x2 (ix2 k' d')) (keep k) d := by
  unfold kept
  refine (extractStridedSlice_apply (s := S8x10x512) (t := S8x8x512) ![0, 0, 0] (residual x0 x1 x2)
    slices_S8x10x512_o0_0_0_S8x8x512 (ix3 b k d) (ix3 b (keep k) d) (fun a => ?_)).trans
    (residual_apply x0 x1 x2 b (keep k) d)
  match a with
  | ⟨0, _⟩ => show b.val = 0 + b.val; omega
  | ⟨1, _⟩ => show k.val = 0 + k.val; omega
  | ⟨2, _⟩ => show d.val = 0 + d.val; omega

theorem energy_apply (x0 : Vec Ideal S8x800x512 .f32) (x1 : Vec Ideal S8x800x10 .f32) (x2 : Vec Ideal S10x512 .f32)
    (b : Fin 8) (k : Fin 8) :
    energy x0 x1 x2 (ix2 b k)
      = ∑ d : Fin 512, resid (fun t d' => x0 (ix3 b t d')) (fun t j => x1 (ix3 b t j)) (fun k' d' => x2 (ix2 k' d')) (keep k) d
          * resid (fun t d' => x0 (ix3 b t d')) (fun t j => x1 (ix3 b t j)) (fun k' d' => x2 (ix2 k' d')) (keep k) d := by
  unfold energy
  refine (sumLast_apply (A := 8) (B := 8) (C := 512) (mulf (kept x0 x1 x2) (kept x0 x1 x2)) _ _ _ _ b k).trans ?_
  refine Finset.sum_congr rfl fun d _ => ?_
  show kept x0 x1 x2 (ix3 b k d) * kept x0 x1 x2 (ix3 b k d) = _
  rw [kept_apply]

theorem floorLen_apply (x0 : Vec Ideal S8x800x512 .f32) (x1 : Vec Ideal S8x800x10 .f32) (x2 : Vec Ideal S10x512 .f32)
    (b : Fin 8) (k : Fin 8) (u : Fin 1) :
    floorLen x0 x1 x2 (ix3 b k u)
      = Ideal.sqrt (max (∑ d : Fin 512, resid (fun t d' => x0 (ix3 b t d')) (fun t j => x1 (ix3 b t j)) (fun k' d' => x2 (ix2 k' d')) (keep k) d
          * resid (fun t d' => x0 (ix3 b t d')) (fun t j => x1 (ix3 b t j)) (fun k' d' => x2 (ix2 k' d')) (keep k) d)
        (Ideal.ofBits .f32 0x2B8CBCCC#32)) := by
  unfold floorLen
  show Ideal.sqrt (max (shapeCast S8x8x1 (energy x0 x1 x2) _ (ix3 b k u)) (Ideal.ofBits .f32 0x2B8CBCCC#32)) = _
  rw [keepLast_apply, energy_apply]

/-- THE PAYLOAD AT AN INDEX: entry (b, k, d) of what the body stores is `normed` of row `b` of the feature and
    score blocks and of the centres, at cluster `k` and feature `d`. -/
theorem pay_apply (x0 : Vec Ideal S8x800x512 .f32) (x1 : Vec Ideal S8x800x10 .f32) (x2 : Vec Ideal S10x512 .f32)
    (b : Fin 8) (k : Fin 8) (d : Fin 512) :
    k0_pay1 x0 x1 x2 (ix3 b k d)
      = normed (fun t d' => x0 (ix3 b t d')) (fun t j => x1 (ix3 b t j)) (fun k' d' => x2 (ix2 k' d')) k d := by
  rw [pay_eq]
  unfold normed
  show Ideal.div (kept x0 x1 x2 (ix3 b k d)) (broadcastTo S8x8x512 (floorLen x0 x1 x2) _ (ix3 b k d)) = _
  rw [bcastLast_apply (A := 8) (B := 8) (by decide) (by decide), floorLen_apply, kept_apply]

end Cert.KernelIdeal.Body

end
-- ==== Proof.Blocks.lean ====
/- From the blocks to the whole result, and the kernel's run read back.

   The grid has four points; point `t` handles batch elements 8t … 8t + 7: its feature and score blocks are rows
   8t … 8t + 7 of the two reshaped arguments, the centres are fetched whole, and its output block is rows
   8t … 8t + 7 of the [32, 8, 512] result. So what point `t` writes back is block `t` of `pooled` of the arrays
   the region finds, the four blocks cover the result, and the program's result is that array reshaped to
   [32, 4096]. -/
import proofs.«106558_j66194035966256_1_alg».proof.Proof.Gen.KernelIdeal.Frame
import proofs.«106558_j66194035966256_1_alg».proof.Proof.Payload
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Whole

open Cert.KernelIdeal Cert.KernelIdeal.Gen Cert.Vlad
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- `pooled` at an index whose coordinates are known. -/
theorem pooled_at (x : (⟨3, ![32, 800, 512]⟩ : Shape).Idx → EReal) (s : (⟨3, ![32, 800, 10]⟩ : Shape).Idx → EReal)
    (c : (⟨2, ![10, 512]⟩ : Shape).Idx → EReal) (i : (⟨3, ![32, 8, 512]⟩ : Shape).Idx) (B : Fin 32) (k : Fin 8) (d : Fin 512)
    (h0 : (i 0).val = B.val) (h1 : (i 1).val = k.val) (h2 : (i 2).val = d.val) :
    pooled x s c i = normed (fun t d' => x (ix3 B t d')) (fun t j => s (ix3 B t j)) (fun k' d' => c (ix2 k' d')) k d := by
  have e : i = ix3 B k d := funext fun a => Fin.ext (match a with
    | ⟨0, _⟩ => h0
    | ⟨1, _⟩ => h1
    | ⟨2, _⟩ => h2)
  subst e
  rfl

/-- The printed index maps over the grid: the batch axis moves with the point, the other axes stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The feature block at point `t`: row `b` of the block is row 8t + b of the reshaped features. -/
theorem fblk_apply (c : Dev nD) (t : Fin cfg0.N) (b : Fin 8) (s : Fin 800) (d : Fin 512) (B : Fin 32)
    (hB : B.val = t.val * 8 + b.val) :
    (iblk m c 0 t : Vec Ideal S8x800x512 .f32) (ix3 b s d) = (V m c main_v0 : S32x800x512.Idx → Ideal .f32) (ix3 B s d) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 8 + 1 * b.val = B.val; rw [e0, hB]; omega
  | ⟨1, _⟩ => show win0_0.index t 1 * 800 + 1 * s.val = s.val; rw [e1]; omega
  | ⟨2, _⟩ => show win0_0.index t 2 * 512 + 1 * d.val = d.val; rw [e2]; omega

/-- The score block at point `t`: row `b` of the block is row 8t + b of the reshaped scores. -/
theorem sblk_apply (c : Dev nD) (t : Fin cfg0.N) (b : Fin 8) (s : Fin 800) (j : Fin 10) (B : Fin 32)
    (hB : B.val = t.val * 8 + b.val) :
    (iblk m c 1 t : Vec Ideal S8x800x10 .f32) (ix3 b s j) = (V m c main_v1 : S32x800x10.Idx → Ideal .f32) (ix3 B s j) := by
  obtain ⟨-, -, -, e0, e1, e2, -⟩ := idx_facts t
  unfold iblk
  rw [View.read_apply]
  show V m c main_v1 _ = V m c main_v1 _
  congr 1
  funext a
  apply Fin.ext
  match a with
  | ⟨0, _⟩ => show win0_1.index t 0 * 8 + 1 * b.val = B.val; rw [e0, hB]; omega
  | ⟨1, _⟩ => show win0_1.index t 1 * 800 + 1 * s.val = s.val; rw [e1]; omega
  | ⟨2, _⟩ => show win0_1.index t 2 * 10 + 1 * j.val = j.val; rw [e2]; omega

/-- The centres' block is the whole array at every point. -/
theorem cblk_apply (c : Dev nD) (t : Fin cfg0.N) (k : Fin 10) (d : Fin 512) :
    (iblk m c 2 t : Vec Ideal S10x512 .f32) (ix2 k d) = (V m c main_arg2 : S10x512.Idx → Ideal .f32) (ix2 k d) := by
  obtain ⟨-, -, -, -, -, -, e0, e1, -⟩ := idx_facts t
  unfold iblk
  rw [View.read_apply]
  show V m c main_arg2 _ = V m c main_arg2 _
  congr 1
  funext a
  apply Fin.ext
  match a with
  | ⟨0, _⟩ => show win0_2.index t 0 * 10 + 1 * k.val = k.val; rw [e0]; omega
  | ⟨1, _⟩ => show win0_2.index t 1 * 512 + 1 * d.val = d.val; rw [e1]; omega

/-- The result array the region leaves: `pooled` of the arrays it finds. -/
abbrev pooledV (c : Dev nD) : S32x8x512.Idx → Ideal .f32 :=
  pooled (V m c main_v0) (V m c main_v1) (V m c main_arg2)

/-- WHAT POINT `t` WRITES BACK is block `t` of `pooled` of the arrays the region finds. -/
theorem flushed_eq (c : Dev nD) (t : Fin cfg0.N) :
    (dats m 0 c).flushed 3 t = ((cfg0.win 3).blk t).view.read (Elt Ideal) (pooledV m c) := by
  show (cfg0.win 3).cut (grid0.coords t) ((dats m 0 c).after 3 t) = _
  rw [after0_3]
  unfold out0_3
  rw [View.canon_unit_zero hz3]
  simp only [View.ld_unit_zero (S := S8x800x512) hz3, View.ld_unit_zero (S := S8x800x10) hz3, View.ld_unit_zero (S := S10x512) hz2]
  obtain ⟨-, -, -, -, -, -, -, -, e0, e1, e2⟩ := idx_facts t
  funext j
  obtain ⟨b, k, d, rfl⟩ : ∃ (b : Fin 8) (k : Fin 8) (d : Fin 512), j = ix3 b k d := ⟨j 0, j 1, j 2, eq_ix3 j⟩
  have hB : t.val * 8 + b.val < 32 := by
    have ht := t.isLt
    have hN : cfg0.N = 4 := N_0
    have hb := b.isLt
    omega
  show k0_pay1 (iblk m c 0 t) (iblk m c 1 t) (iblk m c 2 t) (ix3 b k d)
      = pooledV m c (((cfg0.win 3).blk t).view.emb (ix3 b k d))
  refine (Body.pay_apply (iblk m c 0 t) (iblk m c 1 t) (iblk m c 2 t) b k d).trans ?_
  refine Eq.trans ?_ (pooled_at (V m c main_v0) (V m c main_v1) (V m c main_arg2) _ ⟨t.val * 8 + b.val, hB⟩ k d ?_ ?_ ?_).symm
  · exact normed_congr (fun s d' => fblk_apply m c t b s d' ⟨t.val * 8 + b.val, hB⟩ rfl)
      (fun s j => sblk_apply m c t b s j ⟨t.val * 8 + b.val, hB⟩ rfl) (fun k' d' => cblk_apply m c t k' d') k d
  · show win0_3.index t 0 * 8 + 1 * b.val = t.val * 8 + b.val; rw [e0]; omega
  · show win0_3.index t 1 * 8 + 1 * k.val = k.val; rw [e1]; omega
  · show win0_3.index t 2 * 512 + 1 * d.val = d.val; rw [e2]; omega

/-- An index of the result is in point `t`'s block iff each coordinate is in the block's range on its axis. -/
theorem mem_blk (t : Fin cfg0.N) (i : S32x8x512.Idx) :
    i ∈ ((cfg0.win 3).blk t).view.set ↔ ∀ a : Fin 3, win0_3.index t a * S8x8x512.size a ≤ (i a).val ∧ (i a).val < win0_3.index t a * S8x8x512.size a + S8x8x512.size a := by
  show i ∈ ((View.whole main_v2).slice (win0_3.rect t)).set ↔ _
  rw [View.set_slice_whole, Rect.mem_set_unit]
  exact Iff.rfl

/-- THE RESULT ARRAY after the region: the four blocks cover it, so it is `pooled` of the arrays the region finds. -/
theorem final_out (c : Dev nD) : (dats m 0 c).arrAt 3 cfg0.N = pooledV m c :=
  (dats m 0 c).arrAt_eq_of_cover 3 (pooledV m c) (fun t _ => flushed_eq m c t) fun i => by
    have hi0 : (i 0).val < 32 := (i 0).isLt
    have hi1 : (i 1).val < 8 := (i 1).isLt
    have hi2 : (i 2).val < 512 := (i 2).isLt
    refine ⟨⟨(i 0).val / 8, by rw [show cfg0.N = 4 from N_0]; omega⟩, flush0_3 _, ?_⟩
    obtain ⟨-, -, -, -, -, -, -, -, e0, e1, e2⟩ := idx_facts ⟨(i 0).val / 8, by rw [show cfg0.N = 4 from N_0]; omega⟩
    rw [mem_blk]
    intro a
    match a with
    | ⟨0, _⟩ => show win0_3.index _ 0 * 8 ≤ (i 0).val ∧ (i 0).val < win0_3.index _ 0 * 8 + 8; rw [e0]; show (i 0).val / 8 * 8 ≤ (i 0).val ∧ (i 0).val < (i 0).val / 8 * 8 + 8; omega
    | ⟨1, _⟩ => show win0_3.index _ 1 * 8 ≤ (i 1).val ∧ (i 1).val < win0_3.index _ 1 * 8 + 8; rw [e1]; omega
    | ⟨2, _⟩ => show win0_3.index _ 2 * 512 ≤ (i 2).val ∧ (i 2).val < win0_3.index _ 2 * 512 + 512; rw [e2]; omega

/-- The region finds the features reshaped to [32, 800, 512] … -/
theorem V_v0 (c : Dev nD) : (V m c main_v0 : S32x800x512.Idx → Ideal .f32)
    = shapeCast S32x800x512 (m ((c : Thread nD τ).loc main_arg0)) shapeCasts_S32x16x50x512_S32x800x512 := by
  show StableHlo.after hostOps0 (fun b => m (c, b)) (Proc.devRef .tc main_v0) = _
  after_results
  rfl

/-- … and the scores reshaped to [32, 800, 10]. -/
theorem V_v1 (c : Dev nD) : (V m c main_v1 : S32x800x10.Idx → Ideal .f32)
    = shapeCast S32x800x10 (m ((c : Thread nD τ).loc main_arg1)) shapeCasts_S32x16x50x10_S32x800x10 := by
  show StableHlo.after hostOps0 (fun b => m (c, b)) (Proc.devRef .tc main_v1) = _
  after_results
  rfl

/-- The program's result as one function of its three arguments: the reshapes, `pooled`, the last reshape. -/
abbrev result (c : Dev nD) : Buf (Elt Ideal) ((c : Thread nD τ).loc main_v3) :=
  shapeCast S32x4096
    (pooled (shapeCast S32x800x512 (m ((c : Thread nD τ).loc main_arg0)) shapeCasts_S32x16x50x512_S32x800x512)
      (shapeCast S32x800x10 (m ((c : Thread nD τ).loc main_arg1)) shapeCasts_S32x16x50x10_S32x800x10)
      (m ((c : Thread nD τ).loc main_arg2)))
    shapeCasts_S32x8x512_S32x4096

/-- After the region the one remaining host line reshapes the result array. -/
theorem tail_v3 (c : Dev nD) : Pipeline.afterTail₀ cfgs (dats m) 0 (V0 m) [hostOps1] c main_v3 = result m c := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = pooledV m c :=
    (Pipeline.withArrays_arr spec0 launch0.win.arr_inj c _ _ 3).trans (final_out m c)
  rw [hw]
  show shapeCast S32x4096 (pooled (V m c main_v0) (V m c main_v1) (V m c main_arg2)) shapeCasts_S32x8x512_S32x4096 = _
  rw [V_v0 m c, V_v1 m c, V_main_arg2 m c]

/-- THE KERNEL'S RUN, READ: every weakly fair execution ends with the result buffer at `result` of the arguments
    and the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Whole

end
-- ==== Proof.RefIsSpec.lean ====
/- The reference, one stage at a time, is the specification.

   Over the generated read-at-an-index lemmas: the reference's row maximum (a host reduce from −∞, then a second
   maximum with −∞, which changes nothing), the shifted exponentials, their sums, the soft assignment, the batched
   contraction over the 800 positions, the summed assignments, the residual, the slice to eight clusters, the sum
   of squares, the floored length and the quotient are, at index (b, k, d), `normed` of row `b` of the two
   reshaped arguments and of the centres. -/
import proofs.«106558_j66194035966256_1_alg».proof.Proof.Gen.ReferenceIdeal.Read
import proofs.«106558_j66194035966256_1_alg».proof.Proof.Spec
import proofs.«106558_j66194035966256_1_alg».proof.Proof.LibAxisReads

noncomputable section

open scoped BigOperators

namespace Cert.ReferenceIdeal.Stages

open Cert.ReferenceIdeal Cert.ReferenceIdeal.Gen Cert.ReferenceIdeal.Read Cert.Vlad
open Idealize.ShloMosaic Idealize.ShloMosaic.ValueIdx Idealize.ShloMosaic.AxisReads

variable (x0 : (⟨S32x16x50x512, .f32⟩ : BufTy).Contents (Elt Ideal)) (x1 : (⟨S32x16x50x10, .f32⟩ : BufTy).Contents (Elt Ideal))
  (x2 : (⟨S10x512, .f32⟩ : BufTy).Contents (Elt Ideal))

/-- The ten scores of position `t` of batch element `b`. -/
abbrev scores (b : Fin 32) (t : Fin 800) : Fin 10 → EReal := fun j => val_main_v1 (F := Ideal) x1 (ix3 b t j)

/-- The features of batch element `b`. -/
abbrev feats (b : Fin 32) : Fin 800 → Fin 512 → EReal := fun t d => val_main_v0 (F := Ideal) x0 (ix3 b t d)

/-- The centres. -/
abbrev centres : Fin 10 → Fin 512 → EReal := fun k d => x2 (ix2 k d)

theorem top_apply (b : Fin 32) (t : Fin 800) : val_main_v4 (F := Ideal) x1 (ix2 b t) = rowMax (scores x1 b t) := by
  rw [val_main_v4_apply, val_main_v3_apply, val_main_cst_0_apply]
  unfold val_main_v2
  rw [hostMaxLast_apply (val_main_v1 (F := Ideal) x1) (val_main_cst (F := Ideal)) reducesTo_S32x800x10_S32x800_d2 (by decide) h_S_ b t]
  show max (Ideal.ofBits .f32 0xFF800000#32) (Finset.fold max (Ideal.ofBits .f32 0xFF800000#32) _ _) = _
  rw [negInf_max]
  rfl

theorem expd_apply (b : Fin 32) (t : Fin 800) (j : Fin 10) :
    val_main_v8 (F := Ideal) x1 (ix3 b t j) = expo (scores x1 b t) j := by
  rw [val_main_v8_apply, val_main_v7_apply, val_main_v6_apply, val_main_v5_apply]
  have e : idx_main_v5 (idx_main_v6 (ix3 b t j)) = ix2 b t := funext fun a => by
    match a with
    | ⟨0, _⟩ => rfl
    | ⟨1, _⟩ => rfl
  rw [e, top_apply]
  rfl

theorem sum_apply (b : Fin 32) (t : Fin 800) :
    val_main_v9 (F := Ideal) x1 (ix2 b t) = ∑ j : Fin 10, expo (scores x1 b t) j := by
  rw [val_main_v9_apply]
  show Ideal.ofBits .f32 0x00000000#32 + _ = _
  rw [Ideal.ofBits_zero_f32, zero_add]
  refine Finset.sum_congr rfl fun j _ => ?_
  have e : idx_main_v9 (ix2 b t) j = ix3 b t j := funext fun a => by
    match a with
    | ⟨0, _⟩ => rfl
    | ⟨1, _⟩ => rfl
    | ⟨2, _⟩ => rfl
  rw [e, expd_apply]

theorem soft_apply (b : Fin 32) (t : Fin 800) (j : Fin 10) :
    val_main_v12 (F := Ideal) x1 (ix3 b t j) = assign (scores x1 b t) j := by
  rw [val_main_v12_apply, val_main_v11_apply, val_main_v10_apply]
  have e : idx_main_v10 (idx_main_v11 (ix3 b t j)) = ix2 b t := funext fun a => by
    match a with
    | ⟨0, _⟩ => rfl
    | ⟨1, _⟩ => rfl
  rw [e, sum_apply, expd_apply]
  rfl

theorem resid_apply (b : Fin 32) (k : Fin 10) (d : Fin 512) :
    val_main_v20 (F := Ideal) x0 x1 x2 (ix3 b k d) = resid (feats x0 b) (scores x1 b) (centres x2) k d := by
  rw [val_main_v20_apply, val_main_v13_apply, val_main_v19_apply, val_main_v17_apply, val_main_v15_apply,
    val_main_v14_apply, val_main_v18_apply, val_main_v16_apply]
  have e1 : idx_main_v15 (idx_main_v17 (ix3 b k d)) = ix2 b k := funext fun a => by
    match a with
    | ⟨0, _⟩ => rfl
    | ⟨1, _⟩ => rfl
  have e2 : idx_main_v16 (idx_main_v18 (ix3 b k d)) = ix2 k d := funext fun a => by
    match a with
    | ⟨0, _⟩ => rfl
    | ⟨1, _⟩ => rfl
  rw [e1, e2]
  have hw : (∑ t : Fin 800, val_main_v12 (F := Ideal) x1 (lidx_main_v13 (ix3 b k d) t) * val_main_v0 (F := Ideal) x0 (ridx_main_v13 (ix3 b k d) t))
      = ∑ t : Fin 800, assign (scores x1 b t) k * feats x0 b t d := by
    refine Finset.sum_congr rfl fun t _ => ?_
    have el : lidx_main_v13 (ix3 b k d) t = ix3 b t k := funext fun a => by
      match a with
      | ⟨0, _⟩ => rfl
      | ⟨1, _⟩ => rfl
      | ⟨2, _⟩ => rfl
    have er : ridx_main_v13 (ix3 b k d) t = ix3 b t d := funext fun a => by
      match a with
      | ⟨0, _⟩ => rfl
      | ⟨1, _⟩ => rfl
      | ⟨2, _⟩ => rfl
    rw [el, er, soft_apply]
  have hm : (∑ t : Fin 800, val_main_v12 (F := Ideal) x1 (idx_main_v14 (ix2 b k) t))
      = ∑ t : Fin 800, assign (scores x1 b t) k := by
    refine Finset.sum_congr rfl fun t _ => ?_
    have e : idx_main_v14 (ix2 b k) t = ix3 b t k := funext fun a => by
      match a with
      | ⟨0, _⟩ => rfl
      | ⟨1, _⟩ => rfl
      | ⟨2, _⟩ => rfl
    rw [e, soft_apply]
  rw [hw, hm]
  show _ - (Ideal.ofBits .f32 0x00000000#32 + _) * _ = _
  rw [Ideal.ofBits_zero_f32, zero_add]
  rfl

theorem kept_apply (b : Fin 32) (k : Fin 8) (d : Fin 512) :
    val_main_v21 (F := Ideal) x0 x1 x2 (ix3 b k d) = resid (feats x0 b) (scores x1 b) (centres x2) (keep k) d := by
  rw [val_main_v21_apply]
  have e : idx_main_v21 (ix3 b k d) = ix3 b (keep k) d := funext fun a => by
    match a with
    | ⟨0, _⟩ => rfl
    | ⟨1, _⟩ => rfl
    | ⟨2, _⟩ => rfl
  rw [e, resid_apply]

theorem energy_apply (b : Fin 32) (k : Fin 8) :
    val_main_v23 (F := Ideal) x0 x1 x2 (ix2 b k)
      = ∑ d : Fin 512, resid (feats x0 b) (scores x1 b) (centres x2) (keep k) d * resid (feats x0 b) (scores x1 b) (centres x2) (keep k) d := by
  rw [val_main_v23_apply]
  show Ideal.ofBits .f32 0x00000000#32 + _ = _
  rw [Ideal.ofBits_zero_f32, zero_add]
  refine Finset.sum_congr rfl fun d _ => ?_
  have e : idx_main_v23 (ix2 b k) d = ix3 b k d := funext fun a => by
    match a with
    | ⟨0, _⟩ => rfl
    | ⟨1, _⟩ => rfl
    | ⟨2, _⟩ => rfl
  rw [e, val_main_v22_apply, kept_apply]
  rfl

theorem out_apply (b : Fin 32) (k : Fin 8) (d : Fin 512) :
    val_main_v29 (F := Ideal) x0 x1 x2 (ix3 b k d) = normed (feats x0 b) (scores x1 b) (centres x2) k d := by
  rw [val_main_v29_apply, val_main_v28_apply, val_main_v27_apply, val_main_v26_apply, val_main_v24_apply,
    val_main_v25_apply, val_main_cst_4_apply]
  have e : idx_main_v24 (idx_main_v28 (ix3 b k d)) = ix2 b k := funext fun a => by
    match a with
    | ⟨0, _⟩ => rfl
    | ⟨1, _⟩ => rfl
  rw [e, energy_apply, kept_apply]
  rfl

/-- THE REFERENCE BEFORE ITS LAST RESHAPE is `pooled` of its two reshaped arguments and the centres. -/
theorem ref_pooled :
    val_main_v29 (F := Ideal) x0 x1 x2 = pooled (val_main_v0 (F := Ideal) x0) (val_main_v1 (F := Ideal) x1) x2 := by
  funext i
  obtain ⟨b, k, d, rfl⟩ : ∃ (b : Fin 32) (k : Fin 8) (d : Fin 512), i = ix3 b k d := ⟨i 0, i 1, i 2, eq_ix3 i⟩
  exact out_apply x0 x1 x2 b k d

end Cert.ReferenceIdeal.Stages

end
-- ==== Proof.lean ====
/- VLAD pooling with ghost clusters: a kernel that works through the batch eight elements at a time, against its
   whole-array reference, equal over the extended reals.

   Both programs reshape the features to [32, 800, 512] and the scores to [32, 800, 10], and for every batch element
   take the softmax of each position's ten scores, sum the assignment-weighted features over the 800 positions,
   take off the summed assignments times the centres, keep the first eight clusters, divide each kept row by
   sqrt (max (its sum of squares) ε), and reshape the [32, 8, 512] result to [32, 4096]. The kernel does this for
   eight batch elements per grid point (its product contracts the positions on narrowed operands, which at the
   extended reals are the operands themselves); the reference takes one more maximum with −∞, which changes
   nothing. Neither side's arithmetic is regrouped, so no finiteness of the inputs is used.

   The three frames are the generated ones (the reference's is its generated run with the result dropped); the
   idealization rewrote nothing, so `preserves` is trivial; `algebraic` states both runs' results as the one
   function `Cert.KernelIdeal.Whole.result` of the arguments. -/
import proofs.«106558_j66194035966256_1_alg».proof.Defs
import proofs.«106558_j66194035966256_1_alg».proof.Proof.Gen.Kernel
import proofs.«106558_j66194035966256_1_alg».proof.Proof.Gen.Kernel.Skeleton
import proofs.«106558_j66194035966256_1_alg».proof.Proof.Gen.Kernel.Launch
import proofs.«106558_j66194035966256_1_alg».proof.Proof.Gen.Kernel.Points
import proofs.«106558_j66194035966256_1_alg».proof.Proof.Gen.Kernel.Frame
import proofs.«106558_j66194035966256_1_alg».proof.Proof.Gen.KernelIdeal
import proofs.«106558_j66194035966256_1_alg».proof.Proof.Gen.KernelIdeal.Skeleton
import proofs.«106558_j66194035966256_1_alg».proof.Proof.Gen.KernelIdeal.Launch
import proofs.«106558_j66194035966256_1_alg».proof.Proof.Gen.KernelIdeal.Points
import proofs.«106558_j66194035966256_1_alg».proof.Proof.Gen.KernelIdeal.Frame
import proofs.«106558_j66194035966256_1_alg».proof.Proof.Gen.ReferenceIdeal
import proofs.«106558_j66194035966256_1_alg».proof.Proof.Gen.Pre_finite_inputs
import proofs.«106558_j66194035966256_1_alg».proof.Proof.Gen.ReferenceIdeal.Run
import proofs.«106558_j66194035966256_1_alg».proof.Proof.Gen.ReferenceIdeal.Read
import proofs.«106558_j66194035966256_1_alg».proof.Proof.Blocks
import proofs.«106558_j66194035966256_1_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at `Whole.result` of the
    arguments: the kernel's by its blocks, the reference's stage by stage. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2]
  unfold Cert.ReferenceIdeal.Read.val_main_v30
  rw [Cert.ReferenceIdeal.Stages.ref_pooled]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
